-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x768 .f32) (main_arg1 : IVec S2x800000 32) (main_arg2 : FVec F S768x256 .f32) (main_arg3 : FVec F S256 .f32) (main_arg4 : FVec F S256x256 .f32) (main_arg5 : FVec F S256 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x256 .f32 := Host.absf main_arg2
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x768 : Shape := ⟨2, ![2000, 768]⟩
abbrev S2000x256 : Shape := ⟨2, ![2000, 256]⟩
abbrev S850000x256 : Shape := ⟨2, ![850000, 256]⟩
abbrev S1x256 : Shape := ⟨2, ![1, 256]⟩

abbrev nBuf : Space → Nat
  | .hbm => 84
  | .vmem => 20
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x256, .f32⟩
  | .hbm, ⟨75, _⟩ => ⟨S850000x1, .f32⟩
  | .hbm, ⟨76, _⟩ => ⟨S850000x256, .f32⟩
  | .hbm, ⟨77, _⟩ => ⟨S850000x256, .f32⟩
  | .hbm, ⟨78, _⟩ => ⟨S_, .f32⟩
  | .hbm, ⟨79, _⟩ => ⟨S50000x256, .f32⟩
  | .hbm, ⟨80, _⟩ => ⟨S850000x1, .i32⟩
  | .hbm, ⟨81, _⟩ => ⟨S50000x256, .f32⟩
  | .hbm, ⟨82, _⟩ => ⟨S1x256, .f32⟩
  | .hbm, ⟨83, _⟩ => ⟨S50000x256, .f32⟩
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x768_S768x256_S2000x256_1_0_0_1_n_n_wf : DotDims.WF S2000x768 S768x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 125
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x256, .f32⟩
  | .hbm, ⟨115, _⟩ => ⟨S850000x1, .f32⟩
  | .hbm, ⟨116, _⟩ => ⟨S850000x256, .f32⟩
  | .hbm, ⟨117, _⟩ => ⟨S850000x256, .f32⟩
  | .hbm, ⟨118, _⟩ => ⟨S_, .f32⟩
  | .hbm, ⟨119, _⟩ => ⟨S50000x256, .f32⟩
  | .hbm, ⟨120, _⟩ => ⟨S850000x1, .i32⟩
  | .hbm, ⟨121, _⟩ => ⟨S50000x256, .f32⟩
  | .hbm, ⟨122, _⟩ => ⟨S1x256, .f32⟩
  | .hbm, ⟨123, _⟩ => ⟨S50000x256, .f32⟩
  | .hbm, ⟨124, _⟩ => ⟨S50000x256, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x768_S768x256_S50000x256_1_0_0_1_n_n_wf : DotDims.WF S50000x768 S768x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The two-layer graph convolution as one function of the six argument arrays.

  The edge list `e` (two rows of 800000 node numbers) is extended by one self-loop per node: `srcOf e` and `dstOf e`
  are the 850000 sources and destinations.  A node number is wrapped once (a negative one has 50000 added) before it
  indexes a gather.  `degOf d` counts, per node, the edges that end there; `dinvOf d` is its inverse square root where
  it is positive and zero elsewhere; `normOf s d` is, per edge, the product of that weight at the two ends.
  `aggregate s d nrm h` gathers the rows of `h` at the sources, scales each by the edge's weight and adds it into the
  row of its destination.  A layer is a matrix product, that aggregation, and a bias added to every row; the first
  layer's result goes through max(·, 0) before the second.
-/
import proofs.«140016_j68693706932806_1_alg».proof.Proof.Gen.ReferenceIdeal

noncomputable section

namespace Cert.Gcn

open Cert.ReferenceIdeal Cert.ReferenceIdeal.Gen Idealize.ShloMosaic Idealize.ShloMosaic.TcCoe

variable {F : FTy → Type} [FloatOps F]

/-- The sources: row 0 of the edge list, then every node once. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destinations: row 1 of the edge list, then every node once. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number as a gather reads it: a negative one has the node count added. -/
def wrap (s : (⟨S850000, .i32⟩ : BufTy).Contents (Elt F)) : (⟨S850000, .i32⟩ : BufTy).Contents (Elt F) :=
  select (cmpi .slt s (broadcastInDim S850000 ![] bcast_S_S850000 (constantI S_ 32 0#32))) (addi s (broadcastInDim S850000 ![] bcast_S_S850000 (constantI S_ 32 50000#32))) s

/-- Per node, the number of edges ending there: ones added at the destinations. -/
def degOf (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- Per node, the inverse square root of its degree where that is positive, zero elsewhere. -/
def dinvOf (d : (⟨S850000, .i32⟩ : BufTy).Contents (Elt F)) : (⟨S50000, .f32⟩ : BufTy).Contents (Elt F) :=
  select (cmpf (F := F) .ogt (degOf d) (broadcastInDim S50000 ![] bcast_S_S50000 (constant S_ .f32 0x00000000#32))) (Host.rsqrt (degOf d)) (broadcastInDim S50000 ![] bcast_S_S50000 (id (constant S_ .f32 0x00000000#32)))

/-- Per edge, the weight at its source times the weight at its destination. -/
def normOf (s d : (⟨S850000, .i32⟩ : BufTy).Contents (Elt F)) : (⟨S850000, .f32⟩ : BufTy).Contents (Elt F) :=
  mulf (Host.gather gather_S50000_S850000x1_S850000_n_0_n_n_0_1_1 (dinvOf d) (broadcastInDim S850000x1 ![0] bcast_S850000_S850000x1_0 (wrap s))) (Host.gather gather_S50000_S850000x1_S850000_n_0_n_n_0_1_1 (dinvOf d) (broadcastInDim S850000x1 ![0] bcast_S850000_S850000x1_0 (wrap d)))

/-- The rows of `h` gathered at the sources, each scaled by its edge's weight, added into the row of its destination. -/
def aggregate (s d : (⟨S850000, .i32⟩ : BufTy).Contents (Elt F)) (nrm : (⟨S850000, .f32⟩ : BufTy).Contents (Elt F))
    (h : (⟨S50000x256, .f32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 d) (mulf (Host.gather gather_S50000x256_S850000x1_S850000x256_1_0_n_n_0_1_1256 h (broadcastInDim S850000x1 ![0] bcast_S850000_S850000x1_0 (wrap s))) (broadcastInDim S850000x256 ![0, 1] bcast_S850000x1_S850000x256_0_1 (broadcastInDim S850000x1 ![0] bcast_S850000_S850000x1_0 nrm)))

/-- A bias vector added to every row. -/
def addBias (a : (⟨S50000x256, .f32⟩ : BufTy).Contents (Elt F)) (b : (⟨S256, .f32⟩ : BufTy).Contents (Elt F)) : (⟨S50000x256, .f32⟩ : BufTy).Contents (Elt F) :=
  addf a (broadcastInDim S50000x256 ![0, 1] bcast_S1x256_S50000x256_0_1 (broadcastInDim S1x256 ![1] bcast_S256_S1x256_1 b))

/-- max(·, 0), entry by entry. -/
def relu (a : (⟨S50000x256, .f32⟩ : BufTy).Contents (Elt F)) : (⟨S50000x256, .f32⟩ : BufTy).Contents (Elt F) :=
  maximumf a (broadcastInDim S50000x256 ![] bcast_S_S50000x256 (constant S_ .f32 0x00000000#32))

/-- The first layer's matrix product, [50000, 768] · [768, 256]. -/
def lin1 (x : (⟨S50000x768, .f32⟩ : BufTy).Contents (Elt F)) (w : (⟨S768x256, .f32⟩ : BufTy).Contents (Elt F)) : (⟨S50000x256, .f32⟩ : BufTy).Contents (Elt F) :=
  Host.dotGeneral dot_S50000x768_S768x256_S50000x256_1_0_0_1_n_n none x w

/-- The second layer's matrix product, [50000, 256] · [256, 256]. -/
def lin2 (h : (⟨S50000x256, .f32⟩ : BufTy).Contents (Elt F)) (w : (⟨S256x256, .f32⟩ : BufTy).Contents (Elt F)) : (⟨S50000x256, .f32⟩ : BufTy).Contents (Elt F) :=
  Host.dotGeneral dot_S50000x256_S256x256_S50000x256_1_0_0_1_n_n none h w

/-- The first layer after its activation. -/
def hidden (x : (⟨S50000x768, .f32⟩ : BufTy).Contents (Elt F)) (e : (⟨S2x800000, .i32⟩ : BufTy).Contents (Elt F))
    (w1 : (⟨S768x256, .f32⟩ : BufTy).Contents (Elt F)) (b1 : (⟨S256, .f32⟩ : BufTy).Contents (Elt F)) : (⟨S50000x256, .f32⟩ : BufTy).Contents (Elt F) :=
  relu (addBias (aggregate (srcOf e) (dstOf e) (normOf (srcOf e) (dstOf e)) (lin1 x w1)) b1)

/-- The network's result. -/
def out (x : (⟨S50000x768, .f32⟩ : BufTy).Contents (Elt F)) (e : (⟨S2x800000, .i32⟩ : BufTy).Contents (Elt F))
    (w1 : (⟨S768x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S50000x256, .f32⟩ : BufTy).Contents (Elt F) :=
  addBias (aggregate (srcOf e) (dstOf e) (normOf (srcOf e) (dstOf e)) (lin2 (hidden x e w1 b1) w2)) b2

end Cert.Gcn

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Entries.lean ====
/-
  The four kernel bodies and the specification's layers, read at one entry.

  At the ideal values a change of float format and a reshape of a block to its own shape are the identity, a matrix
  product into a zero accumulator is the exact sum over the contracted axis, and a [1, 256] row broadcast over 2000 rows
  reads its one row.  So the two matrix-product bodies store, at entry (r, q),  ∑ κ, left (r, κ) · weight (κ, q),  and the
  two bias bodies store  x (r, q) + bias (0, q),  the first of them under max(·, 0).  The specification's matrix products
  are the same sums over the whole arrays, and its biased layers are `rowBias` / `rowBiasRelu` of the aggregated array
  and the bias vector laid out as one row.
-/
import proofs.«140016_j68693706932806_1_alg».proof.Proof.Gen.KernelIdeal.Skeleton
import proofs.«140016_j68693706932806_1_alg».proof.Proof.Spec
import proofs.«140016_j68693706932806_1_alg».proof.Proof.LibPlainDot
import Idealize.ShloMosaic.Lib.Pipeline.Value
import Idealize.ShloMosaic.Lib.ValueIdx
import Idealize.ShloMosaic.Lib.ValueLayout

noncomputable section

namespace Cert.Entries

open Cert.KernelIdeal Cert.KernelIdeal.Gen Idealize.ShloMosaic Idealize.ShloMosaic.TcCoe Idealize.ShloMosaic.ValueIdx

/-! ## The matrix products -/

theorem plainK0 : Cert.PlainDot.Plain (dot_S2000x768_S768x256_S2000x256_1_0_0_1_n_n) := ⟨rfl, rfl, rfl, rfl, rfl, rfl⟩
theorem plainK2 : Cert.PlainDot.Plain (dot_S2000x256_S256x256_S2000x256_1_0_0_1_n_n) := ⟨rfl, rfl, rfl, rfl, rfl, rfl⟩
theorem plainR1 : Cert.PlainDot.Plain (Cert.ReferenceIdeal.dot_S50000x768_S768x256_S50000x256_1_0_0_1_n_n) := ⟨rfl, rfl, rfl, rfl, rfl, rfl⟩
theorem plainR2 : Cert.PlainDot.Plain (Cert.ReferenceIdeal.dot_S50000x256_S256x256_S50000x256_1_0_0_1_n_n) := ⟨rfl, rfl, rfl, rfl, rfl, rfl⟩

/-- The first product's body at entry (r, q). -/
theorem pay0_apply (x0 : Vec Ideal S2000x768 .f32) (x1 : Vec Ideal S768x256 .f32) (r : Fin 2000) (q : Fin 256) :
    k0_pay1 x0 x1 (ix2 r q) = ∑ κ : Fin 768, x0 (ix2 r κ) * x1 (ix2 κ q) := by
  unfold k0_pay1
  exact Cert.PlainDot.matmul_zero_apply plainK0 rfl rfl none _ _ r q

/-- The second product's body at entry (r, q). -/
theorem pay2_apply (x0 : Vec Ideal S2000x256 .f32) (x1 : Vec Ideal S256x256 .f32) (r : Fin 2000) (q : Fin 256) :
    k2_pay1 x0 x1 (ix2 r q) = ∑ κ : Fin 256, x0 (ix2 r κ) * x1 (ix2 κ q) := by
  unfold k2_pay1
  rw [shapeCast_self]
  exact Cert.PlainDot.matmul_zero_apply plainK2 rfl rfl none _ _ r q

/-- The specification's first product at entry (p, q). -/
theorem lin1_apply (x : (⟨Cert.ReferenceIdeal.S50000x768, .f32⟩ : BufTy).Contents (Elt Ideal)) (w : (⟨Cert.ReferenceIdeal.S768x256, .f32⟩ : BufTy).Contents (Elt Ideal)) (p : Fin 50000) (q : Fin 256) :
    Cert.Gcn.lin1 x w (ix2 p q) = ∑ κ : Fin 768, x (ix2 p κ) * w (ix2 κ q) := by
  unfold Cert.Gcn.lin1
  exact Cert.PlainDot.dotGeneral_apply plainR1 rfl rfl none _ _ p q

/-- The specification's second product at entry (p, q). -/
theorem lin2_apply (x : (⟨Cert.ReferenceIdeal.S50000x256, .f32⟩ : BufTy).Contents (Elt Ideal)) (w : (⟨Cert.ReferenceIdeal.S256x256, .f32⟩ : BufTy).Contents (Elt Ideal)) (p : Fin 50000) (q : Fin 256) :
    Cert.Gcn.lin2 x w (ix2 p q) = ∑ κ : Fin 256, x (ix2 p κ) * w (ix2 κ q) := by
  unfold Cert.Gcn.lin2
  exact Cert.PlainDot.dotGeneral_apply plainR2 rfl rfl none _ _ p q

/-! ## The bias added to every row -/

/-- One row added to every row of an array. -/
def rowBias (a : (⟨2, ![50000, 256]⟩ : Shape).Idx → EReal) (brow : (⟨2, ![1, 256]⟩ : Shape).Idx → EReal) : (⟨2, ![50000, 256]⟩ : Shape).Idx → EReal :=
  fun i => a i + brow (ix2 (0 : Fin 1) (⟨(i 1).val, idx2_lt1 i⟩ : Fin 256))

/-- The same under max(·, 0). -/
def rowBiasRelu (a : (⟨2, ![50000, 256]⟩ : Shape).Idx → EReal) (brow : (⟨2, ![1, 256]⟩ : Shape).Idx → EReal) : (⟨2, ![50000, 256]⟩ : Shape).Idx → EReal :=
  fun i => max (rowBias a brow i) (Ideal.ofBits .f32 0x00000000#32)

theorem rowBias_apply (a : (⟨2, ![50000, 256]⟩ : Shape).Idx → EReal) (brow : (⟨2, ![1, 256]⟩ : Shape).Idx → EReal) (p : Fin 50000) (q : Fin 256) :
    rowBias a brow (ix2 p q) = a (ix2 p q) + brow (ix2 (0 : Fin 1) q) := rfl

theorem rowBiasRelu_apply (a : (⟨2, ![50000, 256]⟩ : Shape).Idx → EReal) (brow : (⟨2, ![1, 256]⟩ : Shape).Idx → EReal) (p : Fin 50000) (q : Fin 256) :
    rowBiasRelu a brow (ix2 p q) = max (a (ix2 p q) + brow (ix2 (0 : Fin 1) q)) (Ideal.ofBits .f32 0x00000000#32) := rfl

/-- The first bias body at entry (r, q). -/
theorem pay1_apply (x0 : Vec Ideal S2000x256 .f32) (x1 : Vec Ideal S1x256 .f32) (r : Fin 2000) (q : Fin 256) :
    k1_pay1 x0 x1 (ix2 r q) = max (x0 (ix2 r q) + x1 (ix2 (0 : Fin 1) q)) (Ideal.ofBits .f32 0x00000000#32) := by
  unfold k1_pay1
  rw [shapeCast_self, shapeCast_self]
  show max (x0 (ix2 r q) + broadcastTo S2000x256 x1 broadcasts_S1x256_S2000x256 (ix2 r q)) _ = _
  rw [broadcastTo_1b_ab_apply]
  rfl

/-- The second bias body at entry (r, q). -/
theorem pay3_apply (x0 : Vec Ideal S2000x256 .f32) (x1 : Vec Ideal S1x256 .f32) (r : Fin 2000) (q : Fin 256) :
    k3_pay1 x0 x1 (ix2 r q) = x0 (ix2 r q) + x1 (ix2 (0 : Fin 1) q) := by
  unfold k3_pay1
  rw [shapeCast_self, shapeCast_self]
  show x0 (ix2 r q) + broadcastTo S2000x256 x1 broadcasts_S1x256_S2000x256 (ix2 r q) = _
  rw [broadcastTo_1b_ab_apply]

/-- A bias vector broadcast to one row and then to every row reads, at (p, q), the vector at q. -/
theorem bias_bcast_apply (b : (⟨1, ![256]⟩ : Shape).Idx → EReal)
    (h1 : (⟨1, ![256]⟩ : Shape).BroadcastsInDim ⟨2, ![1, 256]⟩ ![1]) (h2 : (⟨2, ![1, 256]⟩ : Shape).BroadcastsInDim ⟨2, ![50000, 256]⟩ ![0, 1])
    (p : Fin 50000) (q : Fin 256) :
    broadcastInDim ⟨2, ![50000, 256]⟩ ![0, 1] h2 (broadcastInDim ⟨2, ![1, 256]⟩ ![1] h1 b) (ix2 p q) = b (ix1 q) := by
  rw [broadcastInDim_apply ![0, 1] h2 _ (ix2 p q) (ix2 (0 : Fin 1) q) (fun a => by match a with | ⟨0, _⟩ => rfl | ⟨1, _⟩ => rfl)]
  rw [broadcastInDim_apply ![1] h1 _ (ix2 (0 : Fin 1) q) (ix1 q) (fun a => by match a with | ⟨0, _⟩ => rfl)]

/-- The specification's bias addition is `rowBias` of the bias laid out as one row. -/
theorem addBias_eq (a : (⟨Cert.ReferenceIdeal.S50000x256, .f32⟩ : BufTy).Contents (Elt Ideal)) (b : (⟨Cert.ReferenceIdeal.S256, .f32⟩ : BufTy).Contents (Elt Ideal))
    (h : (⟨1, ![256]⟩ : Shape).ShapeCasts ⟨2, ![1, 256]⟩) :
    Cert.Gcn.addBias a b = rowBias a (shapeCast ⟨2, ![1, 256]⟩ b h) := by
  funext i
  obtain ⟨p, q, rfl⟩ : ∃ (p : Fin 50000) (q : Fin 256), i = ix2 p q := ⟨i 0, i 1, eq_ix2 i⟩
  unfold Cert.Gcn.addBias
  rw [rowBias_apply, shapeCast_a_1a_apply]
  show a (ix2 p q) + _ = _
  rw [bias_bcast_apply]

/-- The specification's first layer after its activation is `rowBiasRelu` of the bias laid out as one row. -/
theorem relu_addBias_eq (a : (⟨Cert.ReferenceIdeal.S50000x256, .f32⟩ : BufTy).Contents (Elt Ideal)) (b : (⟨Cert.ReferenceIdeal.S256, .f32⟩ : BufTy).Contents (Elt Ideal))
    (h : (⟨1, ![256]⟩ : Shape).ShapeCasts ⟨2, ![1, 256]⟩) :
    Cert.Gcn.relu (Cert.Gcn.addBias a b) = rowBiasRelu a (shapeCast ⟨2, ![1, 256]⟩ b h) := by
  rw [addBias_eq a b h]
  funext i
  rfl

end Cert.Entries

end
-- ==== Proof.Region0.lean ====
/-
  The FIRST matrix product of the network as the kernel computes it (region 0 of the program), read as one array.

  The region's grid has 25 points.  At point t the left window holds rows 2000·t … 2000·t + 1999 of the left array (all
  768 columns), the right window the whole [768, 256] weight matrix, and the result window the same rows of the result.
  The body stores, at entry (r, q) of its block,  ∑ κ < 768, left block (r, κ) · weight (κ, q)  (Entries: `pay0_apply`), which
  is entry (2000·t + r, q) of the matrix product of the whole arrays (`lin1_apply`).  The 25 blocks tile the result array
  and every point writes its block back, so after the region the result array IS that product.
-/
import proofs.«140016_j68693706932806_1_alg».proof.Proof.Gen.KernelIdeal.Frame
import proofs.«140016_j68693706932806_1_alg».proof.Proof.Entries

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices at point t, decided over the 25 points: the left and the result window move with t
    along axis 0, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the two arrays the region finds: the payload's
    entry (r, q) is the sum over κ of the input block's (r, κ) times the weight's (κ, q); row r of block `t` of the
    left array is its row 2000·t + r, and the weight window is the whole matrix at every point. -/
theorem flushed_eq (c : Dev nD) (t : Fin cfg0.N) :
    (dat0 V c).flushed 2 t = ((cfg0.win 2).blk t).view.read (Elt Ideal) (Cert.Gcn.lin1 (V c main_arg0) (V c main_arg2)) := by
  show (cfg0.win 2).cut (grid0.coords t) ((dat0 V c).after 2 t) = _
  rw [after0_2]
  unfold out0_2
  rw [View.canon_unit_zero hz]
  simp only [View.ld_unit_zero (S := S2000x768) hz, View.ld_unit_zero (S := S768x256) hz]
  obtain ⟨e0, e1, e2, e3, e4, e5⟩ := idx_facts t
  have ht : t.val < 25 := lt_of_lt_of_eq t.isLt N_0
  funext j
  have hj0 : (j 0).val < 2000 := (j 0).isLt
  have hj1 : (j 1).val < 256 := (j 1).isLt
  have hL : (win0 2).xinj (grid0.coords t) j = ix2 (⟨(j 0).val, hj0⟩ : Fin 2000) (⟨(j 1).val, hj1⟩ : Fin 256) := by
    funext a; match a with | ⟨0,_⟩ => rfl | ⟨1,_⟩ => rfl
  have hR : ((View.whole main_v30).slice ((win0 2).rect t)).emb j = ix2 (⟨t.val * 2000 + (j 0).val, by omega⟩ : Fin 50000) (⟨(j 1).val, hj1⟩ : Fin 256) := by
    funext a; apply Fin.ext
    match a with
    | ⟨0,_⟩ => show win0_2.index t (0 : Fin 2) * 2000 + 1 * (j 0).val = t.val * 2000 + (j 0).val; omega
    | ⟨1,_⟩ => show win0_2.index t (1 : Fin 2) * 256 + 1 * (j 1).val = (j 1).val; omega
  show k0_pay1 (iblk0 V c 0 t) (iblk0 V c 1 t) ((win0 2).xinj (grid0.coords t) j) = Cert.Gcn.lin1 (V c main_arg0) (V c main_arg2) (((View.whole main_v30).slice ((win0 2).rect t)).emb j)
  rw [hL, hR]
  refine (Cert.Entries.pay0_apply (iblk0 V c 0 t) (iblk0 V c 1 t) _ _).trans ((Cert.Entries.lin1_apply (V c main_arg0) (V c main_arg2) _ _).trans ?_).symm
  refine Finset.sum_congr rfl fun κ _ => ?_
  have b0 : iblk0 V c 0 t (ix2 (⟨(j 0).val, hj0⟩ : Fin 2000) κ) = V c main_arg0 (ix2 (⟨t.val * 2000 + (j 0).val, by omega⟩ : Fin 50000) κ) := by
    show V c main_arg0 (((cfg0.win 0).blk t).view.emb (ix2 (⟨(j 0).val, hj0⟩ : Fin 2000) κ)) = _
    refine congrArg (V c main_arg0) ?_
    funext a; apply Fin.ext
    match a with
    | ⟨0,_⟩ => show win0_0.index t (0 : Fin 2) * 2000 + 1 * (j 0).val = t.val * 2000 + (j 0).val; omega
    | ⟨1,_⟩ => show win0_0.index t (1 : Fin 2) * 768 + 1 * κ.val = κ.val; omega
  have b1 : iblk0 V c 1 t (ix2 κ (⟨(j 1).val, hj1⟩ : Fin 256)) = V c main_arg2 (ix2 κ (⟨(j 1).val, hj1⟩ : Fin 256)) := by
    show V c main_arg2 (((cfg0.win 1).blk t).view.emb (ix2 κ (⟨(j 1).val, hj1⟩ : Fin 256))) = _
    refine congrArg (V c main_arg2) ?_
    funext a; apply Fin.ext
    match a with
    | ⟨0,_⟩ => show win0_1.index t (0 : Fin 2) * 768 + 1 * κ.val = κ.val; omega
    | ⟨1,_⟩ => show win0_1.index t (1 : Fin 2) * 256 + 1 * (j 1).val = (j 1).val; omega
  rw [b0, b1]

/-- An index of the result array lies in point `t`'s block iff each coordinate lies in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The 25 blocks of 2000 rows tile the 50000 rows: row i lies in block i / 2000, and every point writes its block back. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 2000 := ⟨⟨(i 0).val / 2000, by rw [show cfg0.N = 25 from N_0]; omega⟩, rfl⟩
  obtain ⟨e0, e1, e2, e3, e4, e5⟩ := idx_facts t
  refine ⟨t, flush0_2 t, ?_⟩
  rw [mem_blk]
  intro a
  match a with
  | ⟨0,_⟩ => show win0_2.index t (0 : Fin 2) * 2000 ≤ (i 0).val ∧ (i 0).val < win0_2.index t (0 : Fin 2) * 2000 + 2000; omega
  | ⟨1,_⟩ => show win0_2.index t (1 : Fin 2) * 256 ≤ (i 1).val ∧ (i 1).val < win0_2.index t (1 : Fin 2) * 256 + 256; omega

/-- After the region its result array is the matrix product of the two arrays it found. -/
theorem arr_eq (c : Dev nD) : (dat0 V c).arrAt 2 cfg0.N = Cert.Gcn.lin1 (V c main_arg0) (V c main_arg2) :=
  (dat0 V c).arrAt_eq_of_cover 2 _ (fun t _ => flushed_eq V c t) cover

end Cert.KernelIdeal.Region0
end
-- ==== Proof.Region1.lean ====
/-
  The FIRST bias addition of the network, with its activation, as the kernel computes it (region 1 of the program), read
  as one array.

  The region's grid has 25 points.  At point t the first window holds rows 2000·t … 2000·t + 1999 of the aggregated array,
  the second window the whole [1, 256] bias row, and the result window the same rows of the result.  The body stores, at
  entry (r, q) of its block,  max (x block (r, q) + bias (0, q), 0)  (Entries: `pay1_apply`), which is entry (2000·t + r, q) of
  `rowBiasRelu` of the whole arrays.  The 25 blocks tile the result array and every point writes its block back, so after
  the region the result array IS that function of the two arrays it found.
-/
import proofs.«140016_j68693706932806_1_alg».proof.Proof.Gen.KernelIdeal.Frame
import proofs.«140016_j68693706932806_1_alg».proof.Proof.Entries

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices at point t, decided over the 25 points: the first and the result window move with t
    along axis 0, the bias window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `rowBiasRelu` of the two arrays the region finds: row r of block `t` of the
    first array is its row 2000·t + r, and the bias window is the whole row at every point. -/
theorem flushed_eq (c : Dev nD) (t : Fin cfg1.N) :
    (dat1 V c).flushed 2 t = ((cfg1.win 2).blk t).view.read (Elt Ideal) (Cert.Entries.rowBiasRelu (V c main_v43) (V c main_v44)) := by
  show (cfg1.win 2).cut (grid1.coords t) ((dat1 V c).after 2 t) = _
  rw [after1_2]
  unfold out1_2
  rw [View.canon_unit_zero hz]
  simp only [View.ld_unit_zero (S := S2000x256) hz, View.ld_unit_zero (S := S1x256) hz]
  obtain ⟨e0, e1, e2, e3, e4, e5⟩ := idx_facts t
  have ht : t.val < 25 := lt_of_lt_of_eq t.isLt N_1
  funext j
  have hj0 : (j 0).val < 2000 := (j 0).isLt
  have hj1 : (j 1).val < 256 := (j 1).isLt
  have hL : (win1 2).xinj (grid1.coords t) j = ix2 (⟨(j 0).val, hj0⟩ : Fin 2000) (⟨(j 1).val, hj1⟩ : Fin 256) := by
    funext a; match a with | ⟨0,_⟩ => rfl | ⟨1,_⟩ => rfl
  have hR : ((View.whole main_v45).slice ((win1 2).rect t)).emb j = ix2 (⟨t.val * 2000 + (j 0).val, by omega⟩ : Fin 50000) (⟨(j 1).val, hj1⟩ : Fin 256) := by
    funext a; apply Fin.ext
    match a with
    | ⟨0,_⟩ => show win1_2.index t (0 : Fin 2) * 2000 + 1 * (j 0).val = t.val * 2000 + (j 0).val; omega
    | ⟨1,_⟩ => show win1_2.index t (1 : Fin 2) * 256 + 1 * (j 1).val = (j 1).val; omega
  show k1_pay1 (iblk1 V c 0 t) (iblk1 V c 1 t) ((win1 2).xinj (grid1.coords t) j) = Cert.Entries.rowBiasRelu (V c main_v43) (V c main_v44) (((View.whole main_v45).slice ((win1 2).rect t)).emb j)
  rw [hL, hR]
  refine (Cert.Entries.pay1_apply (iblk1 V c 0 t) (iblk1 V c 1 t) _ _).trans ((Cert.Entries.rowBiasRelu_apply (V c main_v43) (V c main_v44) _ _).trans ?_).symm
  have b0 : iblk1 V c 0 t (ix2 (⟨(j 0).val, hj0⟩ : Fin 2000) (⟨(j 1).val, hj1⟩ : Fin 256)) = V c main_v43 (ix2 (⟨t.val * 2000 + (j 0).val, by omega⟩ : Fin 50000) (⟨(j 1).val, hj1⟩ : Fin 256)) := by
    show V c main_v43 (((cfg1.win 0).blk t).view.emb (ix2 (⟨(j 0).val, hj0⟩ : Fin 2000) (⟨(j 1).val, hj1⟩ : Fin 256))) = _
    refine congrArg (V c main_v43) ?_
    funext a; apply Fin.ext
    match a with
    | ⟨0,_⟩ => show win1_0.index t (0 : Fin 2) * 2000 + 1 * (j 0).val = t.val * 2000 + (j 0).val; omega
    | ⟨1,_⟩ => show win1_0.index t (1 : Fin 2) * 256 + 1 * (j 1).val = (j 1).val; omega
  have b1 : iblk1 V c 1 t (ix2 (0 : Fin 1) (⟨(j 1).val, hj1⟩ : Fin 256)) = V c main_v44 (ix2 (0 : Fin 1) (⟨(j 1).val, hj1⟩ : Fin 256)) := by
    show V c main_v44 (((cfg1.win 1).blk t).view.emb (ix2 (0 : Fin 1) (⟨(j 1).val, hj1⟩ : Fin 256))) = _
    refine congrArg (V c main_v44) ?_
    funext a; apply Fin.ext
    match a with
    | ⟨0,_⟩ => show win1_1.index t (0 : Fin 2) * 1 + 1 * 0 = 0; omega
    | ⟨1,_⟩ => show win1_1.index t (1 : Fin 2) * 256 + 1 * (j 1).val = (j 1).val; omega
  rw [b0, b1]

/-- An index of the result array lies in point `t`'s block iff each coordinate lies in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- The 25 blocks of 2000 rows tile the 50000 rows: row i lies in block i / 2000, and every point writes its block back. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ : ∃ t : Fin cfg1.N, t.val = (i 0).val / 2000 := ⟨⟨(i 0).val / 2000, by rw [show cfg1.N = 25 from N_1]; omega⟩, rfl⟩
  obtain ⟨e0, e1, e2, e3, e4, e5⟩ := idx_facts t
  refine ⟨t, flush1_2 t, ?_⟩
  rw [mem_blk]
  intro a
  match a with
  | ⟨0,_⟩ => show win1_2.index t (0 : Fin 2) * 2000 ≤ (i 0).val ∧ (i 0).val < win1_2.index t (0 : Fin 2) * 2000 + 2000; omega
  | ⟨1,_⟩ => show win1_2.index t (1 : Fin 2) * 256 ≤ (i 1).val ∧ (i 1).val < win1_2.index t (1 : Fin 2) * 256 + 256; omega

/-- After the region its result array is `rowBiasRelu` of the two arrays it found. -/
theorem arr_eq (c : Dev nD) : (dat1 V c).arrAt 2 cfg1.N = Cert.Entries.rowBiasRelu (V c main_v43) (V c main_v44) :=
  (dat1 V c).arrAt_eq_of_cover 2 _ (fun t _ => flushed_eq V c t) cover

end Cert.KernelIdeal.Region1
end
-- ==== Proof.Region2.lean ====
/-
  The SECOND matrix product of the network as the kernel computes it (region 2 of the program), read as one array.

  The region's grid has 25 points.  At point t the left window holds rows 2000·t … 2000·t + 1999 of the left array (all
  256 columns), the right window the whole [256, 256] weight matrix, and the result window the same rows of the result.
  The body stores, at entry (r, q) of its block,  ∑ κ < 256, left block (r, κ) · weight (κ, q)  (Entries: `pay2_apply`), which
  is entry (2000·t + r, q) of the matrix product of the whole arrays (`lin2_apply`).  The 25 blocks tile the result array
  and every point writes its block back, so after the region the result array IS that product.
-/
import proofs.«140016_j68693706932806_1_alg».proof.Proof.Gen.KernelIdeal.Frame
import proofs.«140016_j68693706932806_1_alg».proof.Proof.Entries

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices at point t, decided over the 25 points: the left and the result window move with t
    along axis 0, the weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the matrix product of the two arrays the region finds: the payload's
    entry (r, q) is the sum over κ of the input block's (r, κ) times the weight's (κ, q); row r of block `t` of the
    left array is its row 2000·t + r, and the weight window is the whole matrix at every point. -/
theorem flushed_eq (c : Dev nD) (t : Fin cfg2.N) :
    (dat2 V c).flushed 2 t = ((cfg2.win 2).blk t).view.read (Elt Ideal) (Cert.Gcn.lin2 (V c main_v45) (V c main_arg4)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  obtain ⟨e0, e1, e2, e3, e4, e5⟩ := idx_facts t
  have ht : t.val < 25 := lt_of_lt_of_eq t.isLt N_2
  funext j
  have hj0 : (j 0).val < 2000 := (j 0).isLt
  have hj1 : (j 1).val < 256 := (j 1).isLt
  have hL : (win2 2).xinj (grid2.coords t) j = ix2 (⟨(j 0).val, hj0⟩ : Fin 2000) (⟨(j 1).val, hj1⟩ : Fin 256) := by
    funext a; match a with | ⟨0,_⟩ => rfl | ⟨1,_⟩ => rfl
  have hR : ((View.whole main_v46).slice ((win2 2).rect t)).emb j = ix2 (⟨t.val * 2000 + (j 0).val, by omega⟩ : Fin 50000) (⟨(j 1).val, hj1⟩ : Fin 256) := by
    funext a; apply Fin.ext
    match a with
    | ⟨0,_⟩ => show win2_2.index t (0 : Fin 2) * 2000 + 1 * (j 0).val = t.val * 2000 + (j 0).val; omega
    | ⟨1,_⟩ => show win2_2.index t (1 : Fin 2) * 256 + 1 * (j 1).val = (j 1).val; omega
  show k2_pay1 (iblk2 V c 0 t) (iblk2 V c 1 t) ((win2 2).xinj (grid2.coords t) j) = Cert.Gcn.lin2 (V c main_v45) (V c main_arg4) (((View.whole main_v46).slice ((win2 2).rect t)).emb j)
  rw [hL, hR]
  refine (Cert.Entries.pay2_apply (iblk2 V c 0 t) (iblk2 V c 1 t) _ _).trans ((Cert.Entries.lin2_apply (V c main_v45) (V c main_arg4) _ _).trans ?_).symm
  refine Finset.sum_congr rfl fun κ _ => ?_
  have b0 : iblk2 V c 0 t (ix2 (⟨(j 0).val, hj0⟩ : Fin 2000) κ) = V c main_v45 (ix2 (⟨t.val * 2000 + (j 0).val, by omega⟩ : Fin 50000) κ) := by
    show V c main_v45 (((cfg2.win 0).blk t).view.emb (ix2 (⟨(j 0).val, hj0⟩ : Fin 2000) κ)) = _
    refine congrArg (V c main_v45) ?_
    funext a; apply Fin.ext
    match a with
    | ⟨0,_⟩ => show win2_0.index t (0 : Fin 2) * 2000 + 1 * (j 0).val = t.val * 2000 + (j 0).val; omega
    | ⟨1,_⟩ => show win2_0.index t (1 : Fin 2) * 256 + 1 * κ.val = κ.val; omega
  have b1 : iblk2 V c 1 t (ix2 κ (⟨(j 1).val, hj1⟩ : Fin 256)) = V c main_arg4 (ix2 κ (⟨(j 1).val, hj1⟩ : Fin 256)) := by
    show V c main_arg4 (((cfg2.win 1).blk t).view.emb (ix2 κ (⟨(j 1).val, hj1⟩ : Fin 256))) = _
    refine congrArg (V c main_arg4) ?_
    funext a; apply Fin.ext
    match a with
    | ⟨0,_⟩ => show win2_1.index t (0 : Fin 2) * 256 + 1 * κ.val = κ.val; omega
    | ⟨1,_⟩ => show win2_1.index t (1 : Fin 2) * 256 + 1 * (j 1).val = (j 1).val; omega
  rw [b0, b1]

/-- An index of the result array lies in point `t`'s block iff each coordinate lies in the block's range on its axis. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v46).slice (win2_2.rect t)).set ↔ _
  rw [View.set_slice_whole, Rect.mem_set_unit]
  exact Iff.rfl

/-- The 25 blocks of 2000 rows tile the 50000 rows: row i lies in block i / 2000, and every point writes its block back. -/
theorem cover (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ : ∃ t : Fin cfg2.N, t.val = (i 0).val / 2000 := ⟨⟨(i 0).val / 2000, by rw [show cfg2.N = 25 from N_2]; omega⟩, rfl⟩
  obtain ⟨e0, e1, e2, e3, e4, e5⟩ := idx_facts t
  refine ⟨t, flush2_2 t, ?_⟩
  rw [mem_blk]
  intro a
  match a with
  | ⟨0,_⟩ => show win2_2.index t (0 : Fin 2) * 2000 ≤ (i 0).val ∧ (i 0).val < win2_2.index t (0 : Fin 2) * 2000 + 2000; omega
  | ⟨1,_⟩ => show win2_2.index t (1 : Fin 2) * 256 ≤ (i 1).val ∧ (i 1).val < win2_2.index t (1 : Fin 2) * 256 + 256; omega

/-- After the region its result array is the matrix product of the two arrays it found. -/
theorem arr_eq (c : Dev nD) : (dat2 V c).arrAt 2 cfg2.N = Cert.Gcn.lin2 (V c main_v45) (V c main_arg4) :=
  (dat2 V c).arrAt_eq_of_cover 2 _ (fun t _ => flushed_eq V c t) cover

end Cert.KernelIdeal.Region2
end
-- ==== Proof.Region3.lean ====
/-
  The SECOND bias addition of the network as the kernel computes it (region 3 of the program), read
  as one array.

  The region's grid has 25 points.  At point t the first window holds rows 2000·t … 2000·t + 1999 of the aggregated array,
  the second window the whole [1, 256] bias row, and the result window the same rows of the result.  The body stores, at
  entry (r, q) of its block,  x block (r, q) + bias (0, q)  (Entries: `pay3_apply`), which is entry (2000·t + r, q) of
  `rowBias` of the whole arrays.  The 25 blocks tile the result array and every point writes its block back, so after
  the region the result array IS that function of the two arrays it found.
-/
import proofs.«140016_j68693706932806_1_alg».proof.Proof.Gen.KernelIdeal.Frame
import proofs.«140016_j68693706932806_1_alg».proof.Proof.Entries

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices at point t, decided over the 25 points: the first and the result window move with t
    along axis 0, the bias window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `rowBias` of the two arrays the region finds: row r of block `t` of the
    first array is its row 2000·t + r, and the bias window is the whole row at every point. -/
theorem flushed_eq (c : Dev nD) (t : Fin cfg3.N) :
    (dat3 V c).flushed 2 t = ((cfg3.win 2).blk t).view.read (Elt Ideal) (Cert.Entries.rowBias (V c main_v59) (V c main_v60)) := by
  show (cfg3.win 2).cut (grid3.coords t) ((dat3 V c).after 2 t) = _
  rw [after3_2]
  unfold out3_2
  rw [View.canon_unit_zero hz]
  simp only [View.ld_unit_zero (S := S2000x256) hz, View.ld_unit_zero (S := S1x256) hz]
  obtain ⟨e0, e1, e2, e3, e4, e5⟩ := idx_facts t
  have ht : t.val < 25 := lt_of_lt_of_eq t.isLt N_3
  funext j
  have hj0 : (j 0).val < 2000 := (j 0).isLt
  have hj1 : (j 1).val < 256 := (j 1).isLt
  have hL : (win3 2).xinj (grid3.coords t) j = ix2 (⟨(j 0).val, hj0⟩ : Fin 2000) (⟨(j 1).val, hj1⟩ : Fin 256) := by
    funext a; match a with | ⟨0,_⟩ => rfl | ⟨1,_⟩ => rfl
  have hR : ((View.whole main_v61).slice ((win3 2).rect t)).emb j = ix2 (⟨t.val * 2000 + (j 0).val, by omega⟩ : Fin 50000) (⟨(j 1).val, hj1⟩ : Fin 256) := by
    funext a; apply Fin.ext
    match a with
    | ⟨0,_⟩ => show win3_2.index t (0 : Fin 2) * 2000 + 1 * (j 0).val = t.val * 2000 + (j 0).val; omega
    | ⟨1,_⟩ => show win3_2.index t (1 : Fin 2) * 256 + 1 * (j 1).val = (j 1).val; omega
  show k3_pay1 (iblk3 V c 0 t) (iblk3 V c 1 t) ((win3 2).xinj (grid3.coords t) j) = Cert.Entries.rowBias (V c main_v59) (V c main_v60) (((View.whole main_v61).slice ((win3 2).rect t)).emb j)
  rw [hL, hR]
  refine (Cert.Entries.pay3_apply (iblk3 V c 0 t) (iblk3 V c 1 t) _ _).trans ((Cert.Entries.rowBias_apply (V c main_v59) (V c main_v60) _ _).trans ?_).symm
  have b0 : iblk3 V c 0 t (ix2 (⟨(j 0).val, hj0⟩ : Fin 2000) (⟨(j 1).val, hj1⟩ : Fin 256)) = V c main_v59 (ix2 (⟨t.val * 2000 + (j 0).val, by omega⟩ : Fin 50000) (⟨(j 1).val, hj1⟩ : Fin 256)) := by
    show V c main_v59 (((cfg3.win 0).blk t).view.emb (ix2 (⟨(j 0).val, hj0⟩ : Fin 2000) (⟨(j 1).val, hj1⟩ : Fin 256))) = _
    refine congrArg (V c main_v59) ?_
    funext a; apply Fin.ext
    match a with
    | ⟨0,_⟩ => show win3_0.index t (0 : Fin 2) * 2000 + 1 * (j 0).val = t.val * 2000 + (j 0).val; omega
    | ⟨1,_⟩ => show win3_0.index t (1 : Fin 2) * 256 + 1 * (j 1).val = (j 1).val; omega
  have b1 : iblk3 V c 1 t (ix2 (0 : Fin 1) (⟨(j 1).val, hj1⟩ : Fin 256)) = V c main_v60 (ix2 (0 : Fin 1) (⟨(j 1).val, hj1⟩ : Fin 256)) := by
    show V c main_v60 (((cfg3.win 1).blk t).view.emb (ix2 (0 : Fin 1) (⟨(j 1).val, hj1⟩ : Fin 256))) = _
    refine congrArg (V c main_v60) ?_
    funext a; apply Fin.ext
    match a with
    | ⟨0,_⟩ => show win3_1.index t (0 : Fin 2) * 1 + 1 * 0 = 0; omega
    | ⟨1,_⟩ => show win3_1.index t (1 : Fin 2) * 256 + 1 * (j 1).val = (j 1).val; omega
  rw [b0, b1]

/-- An index of the result array lies in point `t`'s block iff each coordinate lies in the block's range on its axis. -/
theorem mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v61).slice (win3_2.rect t)).set ↔ _
  rw [View.set_slice_whole, Rect.mem_set_unit]
  exact Iff.rfl

/-- The 25 blocks of 2000 rows tile the 50000 rows: row i lies in block i / 2000, and every point writes its block back. -/
theorem cover (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ : ∃ t : Fin cfg3.N, t.val = (i 0).val / 2000 := ⟨⟨(i 0).val / 2000, by rw [show cfg3.N = 25 from N_3]; omega⟩, rfl⟩
  obtain ⟨e0, e1, e2, e3, e4, e5⟩ := idx_facts t
  refine ⟨t, flush3_2 t, ?_⟩
  rw [mem_blk]
  intro a
  match a with
  | ⟨0,_⟩ => show win3_2.index t (0 : Fin 2) * 2000 ≤ (i 0).val ∧ (i 0).val < win3_2.index t (0 : Fin 2) * 2000 + 2000; omega
  | ⟨1,_⟩ => show win3_2.index t (1 : Fin 2) * 256 ≤ (i 1).val ∧ (i 1).val < win3_2.index t (1 : Fin 2) * 256 + 256; omega

/-- After the region its result array is `rowBias` of the two arrays it found. -/
theorem arr_eq (c : Dev nD) : (dat3 V c).arrAt 2 cfg3.N = Cert.Entries.rowBias (V c main_v59) (V c main_v60) :=
  (dat3 V c).arrAt_eq_of_cover 2 _ (fun t _ => flushed_eq V c t) cover

end Cert.KernelIdeal.Region3
end
-- ==== Proof.Stretches.lean ====
/-
  The host operations between the kernel regions, one stretch at a time, as functions of what the stretch finds.

  From any contents `W` of the buffers:  the first stretch leaves the edge sources and destinations of the edge list
  (`srcOf`, `dstOf`); the first three stretches together leave the edge weights `normOf` of those;  the stretch after the first
  matrix product leaves `aggregate` of sources, destinations, weights and that product, and the first bias as one row;  the
  stretch after the second matrix product leaves the same of the second product, and the second bias as one row.  A stretch
  leaves a buffer it does not write as it found it.
-/
import proofs.«140016_j68693706932806_1_alg».proof.Proof.Gen.KernelIdeal.Launch
import proofs.«140016_j68693706932806_1_alg».proof.Proof.Spec
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.StableHlo

variable {F : FTy → Type} [FloatOps F] (W : Valuation τ sig (Elt F))

/-- The sources after the first stretch. -/
theorem src_eq : after hostOps0 W (Proc.devRef .tc main_v5) = Cert.Gcn.srcOf (W (Proc.devRef .tc main_arg1)) := by
  after_results; rfl

/-- The destinations after the first stretch. -/
theorem dst_eq : after hostOps0 W (Proc.devRef .tc main_v6) = Cert.Gcn.dstOf (W (Proc.devRef .tc main_arg1)) := by
  after_results; rfl

set_option maxHeartbeats 2000000 in
/-- The edge weights after the first three stretches. -/
theorem norm_eq : after hostOps0_2 (after hostOps0_1 (after hostOps0 W)) (Proc.devRef .tc main_v29)
    = Cert.Gcn.normOf (Cert.Gcn.srcOf (W (Proc.devRef .tc main_arg1))) (Cert.Gcn.dstOf (W (Proc.devRef .tc main_arg1))) := by
  after_results_simp <;> rfl

set_option maxHeartbeats 2000000 in
/-- The first aggregation. -/
theorem agg1_eq : after hostOps1 W (Proc.devRef .tc main_v43)
    = Cert.Gcn.aggregate (W (Proc.devRef .tc main_v5)) (W (Proc.devRef .tc main_v6)) (W (Proc.devRef .tc main_v29)) (W (Proc.devRef .tc main_v30)) := by
  after_results_simp <;> rfl

set_option maxHeartbeats 2000000 in
/-- The first bias as one row. -/
theorem brow1_eq : after hostOps1 W (Proc.devRef .tc main_v44) = shapeCast S1x256 (W (Proc.devRef .tc main_arg3)) shapeCasts_S256_S1x256 := by
  after_results_simp <;> rfl

set_option maxHeartbeats 2000000 in
/-- The second aggregation. -/
theorem agg2_eq : after hostOps3 W (Proc.devRef .tc main_v59)
    = Cert.Gcn.aggregate (W (Proc.devRef .tc main_v5)) (W (Proc.devRef .tc main_v6)) (W (Proc.devRef .tc main_v29)) (W (Proc.devRef .tc main_v46)) := by
  after_results_simp <;> rfl

set_option maxHeartbeats 2000000 in
/-- The second bias as one row. -/
theorem brow2_eq : after hostOps3 W (Proc.devRef .tc main_v60) = shapeCast S1x256 (W (Proc.devRef .tc main_arg5)) shapeCasts_S256_S1x256 := by
  after_results_simp <;> rfl

set_option maxHeartbeats 4000000 in
/-- The stretch writes none of these buffers. -/
theorem keep0 : after hostOps0 W (Proc.devRef .tc main_arg0) = W (Proc.devRef .tc main_arg0)
    ∧ after hostOps0 W (Proc.devRef .tc main_arg2) = W (Proc.devRef .tc main_arg2)
    ∧ after hostOps0 W (Proc.devRef .tc main_arg3) = W (Proc.devRef .tc main_arg3)
    ∧ after hostOps0 W (Proc.devRef .tc main_arg4) = W (Proc.devRef .tc main_arg4)
    ∧ after hostOps0 W (Proc.devRef .tc main_arg5) = W (Proc.devRef .tc main_arg5) := by
  refine ⟨?_, ?_, ?_, ?_, ?_⟩ <;> after_results_simp <;> rfl

set_option maxHeartbeats 4000000 in
/-- The stretch writes none of these buffers. -/
theorem keep0_1 : after hostOps0_1 W (Proc.devRef .tc main_v5) = W (Proc.devRef .tc main_v5)
    ∧ after hostOps0_1 W (Proc.devRef .tc main_v6) = W (Proc.devRef .tc main_v6)
    ∧ after hostOps0_1 W (Proc.devRef .tc main_arg0) = W (Proc.devRef .tc main_arg0)
    ∧ after hostOps0_1 W (Proc.devRef .tc main_arg2) = W (Proc.devRef .tc main_arg2)
    ∧ after hostOps0_1 W (Proc.devRef .tc main_arg3) = W (Proc.devRef .tc main_arg3)
    ∧ after hostOps0_1 W (Proc.devRef .tc main_arg4) = W (Proc.devRef .tc main_arg4)
    ∧ after hostOps0_1 W (Proc.devRef .tc main_arg5) = W (Proc.devRef .tc main_arg5) := by
  refine ⟨?_, ?_, ?_, ?_, ?_, ?_, ?_⟩ <;> after_results_simp <;> rfl

set_option maxHeartbeats 4000000 in
/-- The stretch writes none of these buffers. -/
theorem keep0_2 : after hostOps0_2 W (Proc.devRef .tc main_v5) = W (Proc.devRef .tc main_v5)
    ∧ after hostOps0_2 W (Proc.devRef .tc main_v6) = W (Proc.devRef .tc main_v6)
    ∧ after hostOps0_2 W (Proc.devRef .tc main_arg0) = W (Proc.devRef .tc main_arg0)
    ∧ after hostOps0_2 W (Proc.devRef .tc main_arg2) = W (Proc.devRef .tc main_arg2)
    ∧ after hostOps0_2 W (Proc.devRef .tc main_arg3) = W (Proc.devRef .tc main_arg3)
    ∧ after hostOps0_2 W (Proc.devRef .tc main_arg4) = W (Proc.devRef .tc main_arg4)
    ∧ after hostOps0_2 W (Proc.devRef .tc main_arg5) = W (Proc.devRef .tc main_arg5) := by
  refine ⟨?_, ?_, ?_, ?_, ?_, ?_, ?_⟩ <;> after_results_simp <;> rfl

set_option maxHeartbeats 4000000 in
/-- The stretch writes none of these buffers. -/
theorem keep1 : after hostOps1 W (Proc.devRef .tc main_v5) = W (Proc.devRef .tc main_v5)
    ∧ after hostOps1 W (Proc.devRef .tc main_v6) = W (Proc.devRef .tc main_v6)
    ∧ after hostOps1 W (Proc.devRef .tc main_v29) = W (Proc.devRef .tc main_v29)
    ∧ after hostOps1 W (Proc.devRef .tc main_arg4) = W (Proc.devRef .tc main_arg4)
    ∧ after hostOps1 W (Proc.devRef .tc main_arg5) = W (Proc.devRef .tc main_arg5) := by
  refine ⟨?_, ?_, ?_, ?_, ?_⟩ <;> after_results_simp <;> rfl

end Cert.KernelIdeal.Stretch

end
-- ==== Proof.Thread.lean ====
/-
  The kernel program's result buffer at the last segment boundary is the specification's function of the arguments.

  The program's buffers are followed from the launch through its nine segments.  The three stretches before the first
  region leave the edge sources S, destinations D and weights N of the edge list; no later segment writes them, nor the
  arguments.  Region 0 leaves the first matrix product; the next stretch aggregates it over S, D, N and lays the first bias
  out as a row; region 1 adds the bias under max(·, 0); region 2 leaves the second matrix product; the last stretch
  aggregates it and lays the second bias out as a row; region 3 adds it.  Each region's array is read by its region
  lemma at the contents the region is entered with, each stretch by its stretch lemma.
-/
import proofs.«140016_j68693706932806_1_alg».proof.Proof.Region0
import proofs.«140016_j68693706932806_1_alg».proof.Proof.Region1
import proofs.«140016_j68693706932806_1_alg».proof.Proof.Region2
import proofs.«140016_j68693706932806_1_alg».proof.Proof.Region3
import proofs.«140016_j68693706932806_1_alg».proof.Proof.Stretches

set_option maxRecDepth 16384

noncomputable section

namespace Cert.KernelIdeal.Thread

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge list's sources, destinations and weights. -/
abbrev S := Cert.Gcn.srcOf (F := Ideal) (m ((c : Thread nD τ).loc main_arg1))
abbrev D := Cert.Gcn.dstOf (F := Ideal) (m ((c : Thread nD τ).loc main_arg1))
abbrev N := Cert.Gcn.normOf (F := Ideal) (S m c) (D m c)

/-- The first layer's aggregated product, and the first layer after its activation with the bias as one row. -/
abbrev A1 := Cert.Gcn.aggregate (F := Ideal) (S m c) (D m c) (N m c) (Cert.Gcn.lin1 (m ((c : Thread nD τ).loc main_arg0)) (m ((c : Thread nD τ).loc main_arg2)))
abbrev H1 := Cert.Entries.rowBiasRelu (A1 m c) (shapeCast S1x256 (m ((c : Thread nD τ).loc main_arg3)) shapeCasts_S256_S1x256)
/-- The second layer's aggregated product. -/
abbrev A2 := Cert.Gcn.aggregate (F := Ideal) (S m c) (D m c) (N m c) (Cert.Gcn.lin2 (H1 m c) (m ((c : Thread nD τ).loc main_arg4)))

/-- At region 0's entry: sources, destinations, weights, and the five float arguments as launched. -/
theorem at3 : W3 m ρ c (Proc.devRef .tc main_v5) = S m c ∧ W3 m ρ c (Proc.devRef .tc main_v6) = D m c
    ∧ W3 m ρ c (Proc.devRef .tc main_v29) = N m c
    ∧ W3 m ρ c (Proc.devRef .tc main_arg0) = m ((c : Thread nD τ).loc main_arg0)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5) := by
  obtain ⟨k5, k6, ka0, ka2, ka3, ka4, ka5⟩ := Stretch.keep0_2 (W2 m ρ c)
  obtain ⟨j5, j6, ja0, ja2, ja3, ja4, ja5⟩ := Stretch.keep0_1 (W1 m ρ c)
  obtain ⟨ia0, ia2, ia3, ia4, ia5⟩ := Stretch.keep0 (W0 m ρ c)
  exact ⟨k5.trans (j5.trans (Stretch.src_eq (W0 m ρ c))), k6.trans (j6.trans (Stretch.dst_eq (W0 m ρ c))), Stretch.norm_eq (W0 m ρ c),
    ka0.trans (ja0.trans ia0), ka2.trans (ja2.trans ia2), ka3.trans (ja3.trans ia3), ka4.trans (ja4.trans ia4), ka5.trans (ja5.trans ia5)⟩

/-- At region 0's exit: the first matrix product beside what was carried. -/
theorem at4 : W4 m ρ c (Proc.devRef .tc main_v5) = S m c ∧ W4 m ρ c (Proc.devRef .tc main_v6) = D m c
    ∧ W4 m ρ c (Proc.devRef .tc main_v29) = N m c
    ∧ W4 m ρ c (Proc.devRef .tc main_v30) = Cert.Gcn.lin1 (m ((c : Thread nD τ).loc main_arg0)) (m ((c : Thread nD τ).loc main_arg2))
    ∧ W4 m ρ c (Proc.devRef .tc main_arg3) = m ((c : Thread nD τ).loc main_arg3)
    ∧ W4 m ρ c (Proc.devRef .tc main_arg4) = m ((c : Thread nD τ).loc main_arg4)
    ∧ W4 m ρ c (Proc.devRef .tc main_arg5) = m ((c : Thread nD τ).loc main_arg5) := by
  obtain ⟨h5, h6, h29, ha0, ha2, ha3, ha4, ha5⟩ := at3 m ρ c
  refine ⟨(W4_of_ne m ρ c main_v5 (by decide)).trans h5, (W4_of_ne m ρ c main_v6 (by decide)).trans h6,
    (W4_of_ne m ρ c main_v29 (by decide)).trans h29, ?_, (W4_of_ne m ρ c main_arg3 (by decide)).trans ha3,
    (W4_of_ne m ρ c main_arg4 (by decide)).trans ha4, (W4_of_ne m ρ c main_arg5 (by decide)).trans ha5⟩
  refine (W4_arr m ρ c 2).trans ((Region0.arr_eq (V3 m ρ) c).trans ?_)
  show Cert.Gcn.lin1 (W3 m ρ c (Proc.devRef .tc main_arg0)) (W3 m ρ c (Proc.devRef .tc main_arg2)) = _
  rw [ha0, ha2]

/-- At region 1's entry: the first aggregation and the first bias as a row. -/
theorem at5 : W5 m ρ c (Proc.devRef .tc main_v5) = S m c ∧ W5 m ρ c (Proc.devRef .tc main_v6) = D m c
    ∧ W5 m ρ c (Proc.devRef .tc main_v29) = N m c
    ∧ W5 m ρ c (Proc.devRef .tc main_v43) = A1 m c
    ∧ W5 m ρ c (Proc.devRef .tc main_v44) = shapeCast S1x256 (m ((c : Thread nD τ).loc main_arg3)) shapeCasts_S256_S1x256
    ∧ W5 m ρ c (Proc.devRef .tc main_arg4) = m ((c : Thread nD τ).loc main_arg4)
    ∧ W5 m ρ c (Proc.devRef .tc main_arg5) = m ((c : Thread nD τ).loc main_arg5) := by
  obtain ⟨h5, h6, h29, h30, ha3, ha4, ha5⟩ := at4 m ρ c
  obtain ⟨k5, k6, k29, ka4, ka5⟩ := Stretch.keep1 (W4 m ρ c)
  refine ⟨k5.trans h5, k6.trans h6, k29.trans h29, (Stretch.agg1_eq (W4 m ρ c)).trans ?_, (Stretch.brow1_eq (W4 m ρ c)).trans ?_, ka4.trans ha4, ka5.trans ha5⟩
  · rw [h5, h6, h29, h30]
  · rw [ha3]

/-- At region 1's exit (region 2's entry): the first layer after its activation. -/
theorem at6 : W6 m ρ c (Proc.devRef .tc main_v5) = S m c ∧ W6 m ρ c (Proc.devRef .tc main_v6) = D m c
    ∧ W6 m ρ c (Proc.devRef .tc main_v29) = N m c
    ∧ W6 m ρ c (Proc.devRef .tc main_v45) = H1 m c
    ∧ W6 m ρ c (Proc.devRef .tc main_arg4) = m ((c : Thread nD τ).loc main_arg4)
    ∧ W6 m ρ c (Proc.devRef .tc main_arg5) = m ((c : Thread nD τ).loc main_arg5) := by
  obtain ⟨h5, h6, h29, h43, h44, ha4, ha5⟩ := at5 m ρ c
  refine ⟨(W6_of_ne m ρ c main_v5 (by decide)).trans h5, (W6_of_ne m ρ c main_v6 (by decide)).trans h6,
    (W6_of_ne m ρ c main_v29 (by decide)).trans h29, ?_,
    (W6_of_ne m ρ c main_arg4 (by decide)).trans ha4, (W6_of_ne m ρ c main_arg5 (by decide)).trans ha5⟩
  refine (W6_arr m ρ c 2).trans ((Region1.arr_eq (V5 m ρ) c).trans ?_)
  show Cert.Entries.rowBiasRelu (W5 m ρ c (Proc.devRef .tc main_v43)) (W5 m ρ c (Proc.devRef .tc main_v44)) = _
  rw [h43, h44]

/-- At region 2's exit: the second matrix product. -/
theorem at7 : W7 m ρ c (Proc.devRef .tc main_v5) = S m c ∧ W7 m ρ c (Proc.devRef .tc main_v6) = D m c
    ∧ W7 m ρ c (Proc.devRef .tc main_v29) = N m c
    ∧ W7 m ρ c (Proc.devRef .tc main_v46) = Cert.Gcn.lin2 (H1 m c) (m ((c : Thread nD τ).loc main_arg4))
    ∧ W7 m ρ c (Proc.devRef .tc main_arg5) = m ((c : Thread nD τ).loc main_arg5) := by
  obtain ⟨h5, h6, h29, h45, ha4, ha5⟩ := at6 m ρ c
  refine ⟨(W7_of_ne m ρ c main_v5 (by decide)).trans h5, (W7_of_ne m ρ c main_v6 (by decide)).trans h6,
    (W7_of_ne m ρ c main_v29 (by decide)).trans h29, ?_, (W7_of_ne m ρ c main_arg5 (by decide)).trans ha5⟩
  refine (W7_arr m ρ c 2).trans ((Region2.arr_eq (V6 m ρ) c).trans ?_)
  show Cert.Gcn.lin2 (W6 m ρ c (Proc.devRef .tc main_v45)) (W6 m ρ c (Proc.devRef .tc main_arg4)) = _
  rw [h45, ha4]

/-- At region 3's entry: the second aggregation and the second bias as a row. -/
theorem at8 : W8 m ρ c (Proc.devRef .tc main_v59) = A2 m c
    ∧ W8 m ρ c (Proc.devRef .tc main_v60) = shapeCast S1x256 (m ((c : Thread nD τ).loc main_arg5)) shapeCasts_S256_S1x256 := by
  obtain ⟨h5, h6, h29, h46, ha5⟩ := at7 m ρ c
  refine ⟨(Stretch.agg2_eq (W7 m ρ c)).trans ?_, (Stretch.brow2_eq (W7 m ρ c)).trans ?_⟩
  · rw [h5, h6, h29, h46]
  · rw [ha5]

/-- At the last boundary the result buffer holds the second aggregation with the second bias added to every row. -/
theorem at9 : W9 m ρ c (Proc.devRef .tc main_v61)
    = Cert.Entries.rowBias (A2 m c) (shapeCast S1x256 (m ((c : Thread nD τ).loc main_arg5)) shapeCasts_S256_S1x256) := by
  obtain ⟨h59, h60⟩ := at8 m ρ c
  refine (W9_arr m ρ c 2).trans ((Region3.arr_eq (V8 m ρ) c).trans ?_)
  show Cert.Entries.rowBias (W8 m ρ c (Proc.devRef .tc main_v59)) (W8 m ρ c (Proc.devRef .tc main_v60)) = _
  rw [h59, h60]

/-- The result buffer at the last boundary is the specification's result of the six arguments. -/
theorem result_eq : W9 m ρ c (Proc.devRef .tc main_v61)
    = Cert.Gcn.out (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [at9 m ρ c]
  unfold Cert.Gcn.out Cert.Gcn.hidden
  rw [Cert.Entries.relu_addBias_eq _ _ shapeCasts_S256_S1x256, Cert.Entries.addBias_eq _ _ shapeCasts_S256_S1x256]

end Cert.KernelIdeal.Thread

end
-- ==== Proof.RefValue.lean ====
/-
  The reference program's result is the specification's function of its arguments.

  The reference's run ends with its result buffer at the composed term of its 119 host operations.  That term computes the
  edge sources, destinations and weights twice (once per layer) from the same edge list by the same operations, so both
  copies are `srcOf`, `dstOf`, `normOf` of that list, and the rest is the two layers in order: the term IS `Gcn.out` of the six
  argument arrays, by unfolding the names.
-/
import proofs.«140016_j68693706932806_1_alg».proof.Proof.RefRun
import proofs.«140016_j68693706932806_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The run's result term is the specification's result. -/
theorem res_eq (m : (ℓ : Loc nD τ sig) → Buf (Elt F) ℓ) (c : Dev nD) :
    Cert.ReferenceIdeal.RunP.res_main_v90 m c
      = Cert.Gcn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.RunP.res_main_v90
  rfl

end Cert.ReferenceIdeal.RefValue

end
-- ==== Proof.lean ====
/-
  A two-layer graph convolution: the Pallas program (two matrix-product kernels and two bias kernels around the host's
  gathers and scatter-adds) against the plain reference, over the extended reals.

  Both programs compute, from node features x, an edge list e and the two layers' weights and biases,

      out = addBias (aggregate (lin2 (relu (addBias (aggregate (lin1 x W1)) b1)) W2)) b2

  (`Cert.Gcn.out`, Proof/Spec.lean), where `aggregate` gathers rows at the edges' sources, scales them by the symmetric degree
  weights and adds them into the rows of the edges' destinations.  The aggregation is the same host operations in both
  programs, and the reference's second copy of the degree weights is the same function of the same edge list.  What differs is
  how a layer's dense part is computed: the kernel tiles the 50000 rows into 25 blocks of 2000 and computes each block on the
  core, with the operands passed through a narrower float format first — the identity on extended reals — and the bias as a
  [1, 256] row.  A block of the matrix product of two arrays is the product of the block's rows with the whole weight matrix,
  sum by sum, and a bias row added to a block of rows is the block of the bias added to every row; the blocks tile the array.
  No law used here needs finite values, so the precondition is never opened.
-/
import proofs.«140016_j68693706932806_1_alg».proof.Defs
import proofs.«140016_j68693706932806_1_alg».proof.Proof.Gen.Kernel
import proofs.«140016_j68693706932806_1_alg».proof.Proof.Gen.Kernel.Frame
import proofs.«140016_j68693706932806_1_alg».proof.Proof.Gen.KernelIdeal
import proofs.«140016_j68693706932806_1_alg».proof.Proof.Gen.KernelIdeal.Frame
import proofs.«140016_j68693706932806_1_alg».proof.Proof.Gen.ReferenceIdeal
import proofs.«140016_j68693706932806_1_alg».proof.Proof.Gen.Pre_finite_inputs
import proofs.«140016_j68693706932806_1_alg».proof.Proof.KernelRun
import proofs.«140016_j68693706932806_1_alg».proof.Proof.Thread
import proofs.«140016_j68693706932806_1_alg».proof.Proof.RefRun
import proofs.«140016_j68693706932806_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does the program read at the ideal values. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.RunP.run (F := Ideal) m ρ)

/-- Nothing was rewritten when the program was printed for the ideal values. -/
theorem preserves : Cert.preserves_Kernel_KernelIdeal := trivial

/-- From memories agreeing on the six arguments both programs end with `Cert.Gcn.out` of them in their result buffers. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.RunP.run_all m ρ)
    have hc := h c
    exact ⟨(hc _ (Cert.KernelIdeal.Gen.mem_uc Cert.KernelIdeal.main_v61 (by decide))).trans (Cert.KernelIdeal.Thread.result_eq m ρ c),
      (hc _ (Cert.KernelIdeal.Gen.mem_uc Cert.KernelIdeal.main_arg0 (by decide))).trans (Cert.KernelIdeal.Gen.W9_main_arg0 m ρ c),
      (hc _ (Cert.KernelIdeal.Gen.mem_uc Cert.KernelIdeal.main_arg1 (by decide))).trans (Cert.KernelIdeal.Gen.W9_main_arg1 m ρ c),
      (hc _ (Cert.KernelIdeal.Gen.mem_uc Cert.KernelIdeal.main_arg2 (by decide))).trans (Cert.KernelIdeal.Gen.W9_main_arg2 m ρ c),
      (hc _ (Cert.KernelIdeal.Gen.mem_uc Cert.KernelIdeal.main_arg3 (by decide))).trans (Cert.KernelIdeal.Gen.W9_main_arg3 m ρ c),
      (hc _ (Cert.KernelIdeal.Gen.mem_uc Cert.KernelIdeal.main_arg4 (by decide))).trans (Cert.KernelIdeal.Gen.W9_main_arg4 m ρ c),
      (hc _ (Cert.KernelIdeal.Gen.mem_uc Cert.KernelIdeal.main_arg5 (by decide))).trans (Cert.KernelIdeal.Gen.W9_main_arg5 m ρ c)⟩
  · refine (θ_run Cert.ReferenceIdeal.defs _ _).mono (fun r h c => ⟨(h c).1.trans ?_, (h c).2⟩)
      (Cert.ReferenceIdeal.RunP.run (F := Ideal) m' ρ')
    rw [Cert.ReferenceIdeal.RefValue.res_eq, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
